-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S50000x64 .f32) (main_arg2 : FVec F S1600000x1 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1600000x1 .f32 := Host.absf main_arg2
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x64 : Shape := ⟨2, ![1600000, 64]⟩
abbrev S8000x64 : Shape := ⟨2, ![8000, 64]⟩
abbrev S8000x1 : Shape := ⟨2, ![8000, 1]⟩
abbrev S1x64 : Shape := ⟨2, ![1, 64]⟩
abbrev S10000x64 : Shape := ⟨2, ![10000, 64]⟩

abbrev nBuf : Space → Nat
  | .hbm => 36
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S64x64, .f32⟩
  | .hbm, ⟨29, _⟩ => ⟨S64x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x1, .f32⟩
  | .local _ .vmem, ⟨5, _⟩ => ⟨S8000x1, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S8000x64, .f32⟩
  | .local _ .vmem, ⟨11, _⟩ => ⟨S8000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  concatenates_S50000x64_S50000x64_S100000x64_d0 : Shape.Concatenates [S50000x64, S50000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x1_S8000x1_0_0 : ∀ a, (![0, 0] : Fin 2 → Nat) a + S8000x1.size a ≤ S8000x1.size a
  h_S8000x1 : 0 < S8000x1.numel
  broadcasts_S8000x1_S8000x64 : S8000x1.Broadcasts S8000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .f32 = 32 ∨ (Rect.block (s := S1600000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v7) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x64 : Shape := ⟨2, ![1600000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S1x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .i1⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_1_0_0_n_n_wf : DotDims.WF S1600000x64 S64x64 S1600000x64 [1] [1] [0] [0] [] []
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics of one graph-convolution layer over extended reals, stated once and away from both programs.

  For an edge e with gathered endpoint rows xs e, xd e (64 entries each) and a per-edge scale nrm e, the
  message is

      msg e o = (((Σₖ xs e k · A k o) + b₁ o) + Σₖ (xs e k · xd e k) · B k o + b₂ o) · nrm e

  The kernel receives the two weight matrices already transposed (A = W₁ᵀ, B = W₂ᵀ) and multiplies by the
  scale on the right; the reference contracts the second axis of W₁, W₂ directly and multiplies by the scale
  on the left. The two agree entry by entry: a transposed matrix read at (k, o) is the matrix at (o, k), and
  multiplication of extended reals is commutative. No finiteness is needed: nothing is distributed or cancelled.

  The node update is LeakyReLU with the slope the f32 word 0x3E4CCCCD: h where h > 0, slope · h elsewhere.
  The kernel splats its two scalars; the reference broadcasts rank-0 constants. Entry by entry these are one value.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gcn

open Idealize.ShloMosaic Idealize.ShloMosaic.ValueIdx

/-- Edges × features. -/
abbrev SE64 : Shape := ⟨2, ![1600000, 64]⟩
/-- Edges × 1: the per-edge scale as a column. -/
abbrev SE1 : Shape := ⟨2, ![1600000, 1]⟩
/-- A 64 × 64 weight matrix. -/
abbrev SW : Shape := ⟨2, ![64, 64]⟩
/-- A bias vector. -/
abbrev SB : Shape := ⟨1, ![64]⟩
/-- Nodes × features. -/
abbrev SN64 : Shape := ⟨2, ![100000, 64]⟩
/-- Rank 0. -/
abbrev S0 : Shape := ⟨0, ![]⟩

/-! ## The per-edge message -/

/-- One entry of the message array as the kernel computes it, at edge e and output feature o: A, B are the
    weights as the kernel's windows hold them (contracted on their FIRST axis), the scale multiplied on the right. -/
def msgKat (xs xd : FVec Ideal SE64 .f32) (nrm : FVec Ideal SE1 .f32) (A : FVec Ideal SW .f32) (b₁ : FVec Ideal SB .f32)
    (B : FVec Ideal SW .f32) (b₂ : FVec Ideal SB .f32) (e : Fin 1600000) (o : Fin 64) : EReal :=
  ((((∑ k : Fin 64, xs (ix2 e k) * A (ix2 k o)) + b₁ (ix1 o))
      + ∑ k : Fin 64, (xs (ix2 e k) * xd (ix2 e k)) * B (ix2 k o)) + b₂ (ix1 o))
    * nrm (ix2 e (0 : Fin 1))

/-- The message array as the kernel computes it. -/
def msgK (xs xd : FVec Ideal SE64 .f32) (nrm : FVec Ideal SE1 .f32) (A : FVec Ideal SW .f32) (b₁ : FVec Ideal SB .f32)
    (B : FVec Ideal SW .f32) (b₂ : FVec Ideal SB .f32) : FVec Ideal SE64 .f32 := fun i =>
  msgKat xs xd nrm A b₁ B b₂ (i 0) (i 1)

/-- One entry of the message array as the reference computes it: W₁, W₂ contracted on their SECOND axis, the
    scale multiplied on the left. -/
def msgRat (xs xd : FVec Ideal SE64 .f32) (nrm : FVec Ideal SE1 .f32) (W₁ : FVec Ideal SW .f32) (b₁ : FVec Ideal SB .f32)
    (W₂ : FVec Ideal SW .f32) (b₂ : FVec Ideal SB .f32) (e : Fin 1600000) (o : Fin 64) : EReal :=
  nrm (ix2 e (0 : Fin 1))
    * ((((∑ k : Fin 64, xs (ix2 e k) * W₁ (ix2 o k)) + b₁ (ix1 o))
      + ∑ k : Fin 64, (xs (ix2 e k) * xd (ix2 e k)) * W₂ (ix2 o k)) + b₂ (ix1 o))

/-- The message array as the reference computes it. -/
def msgR (xs xd : FVec Ideal SE64 .f32) (nrm : FVec Ideal SE1 .f32) (W₁ : FVec Ideal SW .f32) (b₁ : FVec Ideal SB .f32)
    (W₂ : FVec Ideal SW .f32) (b₂ : FVec Ideal SB .f32) : FVec Ideal SE64 .f32 := fun i =>
  msgRat xs xd nrm W₁ b₁ W₂ b₂ (i 0) (i 1)

/-- With the kernel's weights the transposes of the reference's, the two message arrays are one: a transpose read
    at (k, o) is the matrix at (o, k), and the scale commutes with the bracket. -/
theorem msgK_transpose (xs xd : FVec Ideal SE64 .f32) (nrm : FVec Ideal SE1 .f32) (W₁ : FVec Ideal SW .f32)
    (b₁ : FVec Ideal SB .f32) (W₂ : FVec Ideal SW .f32) (b₂ : FVec Ideal SB .f32) (h : SW.Transposes [1, 0] SW) :
    msgK xs xd nrm (transpose SW [1, 0] W₁ h) b₁ (transpose SW [1, 0] W₂ h) b₂ = msgR xs xd nrm W₁ b₁ W₂ b₂ := by
  funext i
  show msgKat xs xd nrm (transpose SW [1, 0] W₁ h) b₁ (transpose SW [1, 0] W₂ h) b₂ (i 0) (i 1)
    = msgRat xs xd nrm W₁ b₁ W₂ b₂ (i 0) (i 1)
  generalize (i 0 : Fin 1600000) = e
  generalize (i 1 : Fin 64) = o
  have e1 : ∀ k : Fin 64, transpose SW [1, 0] W₁ h (ix2 k o) = W₁ (ix2 o k) := fun k => transpose_ix2_apply W₁ h k o
  have e2 : ∀ k : Fin 64, transpose SW [1, 0] W₂ h (ix2 k o) = W₂ (ix2 o k) := fun k => transpose_ix2_apply W₂ h k o
  unfold msgKat msgRat
  simp only [e1, e2]
  exact mul_comm (G := EReal) _ _

/-! ## The node update -/

/-- LeakyReLU as the kernel's body spells it: the zero and the slope splatted from scalars. -/
def lreluK (h : FVec Ideal SN64 .f32) : FVec Ideal SN64 .f32 :=
  select (cmpf .ogt h (broadcast SN64 (Scalar.ofBits (F := Ideal) .f32 0x00000000#32))) h
    (mulf (broadcast SN64 (Scalar.ofBits (F := Ideal) .f32 0x3E4CCCCD#32)) h)

/-- LeakyReLU as the reference spells it: the zero and the slope rank-0 constants broadcast to the array. -/
def lreluR (h : FVec Ideal SN64 .f32) (hb : S0.BroadcastsInDim SN64 (![] : Fin 0 → Fin SN64.rank)) : FVec Ideal SN64 .f32 :=
  select (cmpf .ogt h (broadcastInDim SN64 ![] hb (constant (F := Ideal) S0 .f32 0x00000000#32))) h
    (mulf (broadcastInDim SN64 ![] hb (constant (F := Ideal) S0 .f32 0x3E4CCCCD#32)) h)

/-- A broadcast rank-0 constant reads its one value everywhere, which is the splatted scalar. -/
theorem lreluR_eq (h : FVec Ideal SN64 .f32) (hb : S0.BroadcastsInDim SN64 (![] : Fin 0 → Fin SN64.rank)) :
    lreluR h hb = lreluK h := by
  funext i
  rfl

end Cert.Gcn

end
-- ==== Proof.Region0.lean ====
/-
  The first region: the per-edge messages, two hundred blocks of 8000 edges.

  Grid point t reads rows [8000·t, 8000·t + 8000) of the two gathered endpoint arrays and of the scale column, and
  the two weight matrices and two biases whole; it writes the same rows of the message array. Entry (p, q) of the
  block it writes is

      (((Σₖ xs p k · A k q) + b₁ q) + Σₖ (xs p k · xd p k) · B k q + b₂ q) · nrm p

  read off the body's one stored value: a matrix product into a zero accumulator is the plain sum over its one
  contracted axis, narrowing to bf16 changes nothing over extended reals, a bias cast to one row and broadcast
  down the rows reads the bias at the column, and the scale column broadcast across the columns reads the scale at
  the row. With the row shifted by 8000·t this is the entry of the whole message array, and the two hundred
  blocks tile the 1600000 rows (row r lies in the block of point r / 8000): after the region the output array IS
  the message array of the arrays the region found in its windows.
-/
import proofs.«162077_j75857712382545_1_alg».proof.Proof.Gen.KernelIdeal.Frame
import proofs.«162077_j75857712382545_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a; rfl

/-! ## The matrix product at an entry -/

/-- The left operand is read at the output's row … -/
theorem lhs_axis0 (j : S8000x64.Idx) (q : dot_S8000x64_S64x64_S8000x64_1_0_0_1_n_n.contr.Idx) :
    (dot_S8000x64_S64x64_S8000x64_1_0_0_1_n_n.lhsIdx j q 0).val = (j 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and the contracted column; -/
theorem lhs_axis1 (j : S8000x64.Idx) (q : dot_S8000x64_S64x64_S8000x64_1_0_0_1_n_n.contr.Idx) :
    (dot_S8000x64_S64x64_S8000x64_1_0_0_1_n_n.lhsIdx j q 1).val = (q ⟨0, by decide⟩).val :=
  dot_S8000x64_S64x64_S8000x64_1_0_0_1_n_n.lhsIdx_val_of_single rfl j q
/-- the right operand at the contracted row … -/
theorem rhs_axis0 (j : S8000x64.Idx) (q : dot_S8000x64_S64x64_S8000x64_1_0_0_1_n_n.contr.Idx) :
    (dot_S8000x64_S64x64_S8000x64_1_0_0_1_n_n.rhsIdx j q 0).val = (q ⟨0, by decide⟩).val :=
  dot_S8000x64_S64x64_S8000x64_1_0_0_1_n_n.rhsIdx_val_of_single rfl j q
/-- … and the output's column. -/
theorem rhs_axis1 (j : S8000x64.Idx) (q : dot_S8000x64_S64x64_S8000x64_1_0_0_1_n_n.contr.Idx) :
    (dot_S8000x64_S64x64_S8000x64_1_0_0_1_n_n.rhsIdx j q 1).val = (j 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block times a 64 × 64 matrix into the zero accumulator, at entry (p, q): the sum over the 64 contracted
    positions of row p of the block against column q of the matrix. -/
theorem matmul_entry (x : FVec Ideal S8000x64 .bf16) (w : FVec Ideal S64x64 .bf16) (p : Fin 8000) (q : Fin 64) :
    matmul dot_S8000x64_S64x64_S8000x64_1_0_0_1_n_n none x w (constant S8000x64 .f32 0x00000000#32) (ix2 p q)
      = ∑ k : Fin 64, x (ix2 p k) * w (ix2 k q) := by
  refine (Ideal.matmul_constant_zero_apply dot_S8000x64_S64x64_S8000x64_1_0_0_1_n_n none x w (ix2 p q)).trans ?_
  rw [← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The two broadcasts at an entry -/

/-- A bias cast to one row and broadcast down the rows reads the bias at the column. -/
theorem bias_entry (b : FVec Ideal S64 .f32) (h1 : S64.ShapeCasts S1x64) (h2 : S1x64.Broadcasts S8000x64) (p : Fin 8000) (q : Fin 64) :
    broadcastTo S8000x64 (shapeCast S1x64 b h1) h2 (ix2 p q) = b (ix1 q) :=
  (broadcastTo_1b_ab_apply (shapeCast S1x64 b h1) h2 p q).trans (shapeCast_a_1a_apply b h1 (0 : Fin 1) q)

/-- A column broadcast across the columns reads the column at the row. -/
theorem column_entry (v : FVec Ideal S8000x1 .f32) (h : S8000x1.Broadcasts S8000x64) (p : Fin 8000) (q : Fin 64) :
    broadcastTo S8000x64 v h (ix2 p q) = v (ix2 p (0 : Fin 1)) := by
  refine broadcastTo_apply v h (ix2 p q) (ix2 p (0 : Fin 1)) fun ax => ?_
  match ax with
  | ⟨0, _⟩ => show p.val = if (8000 : Nat) = 1 then 0 else p.val; rw [if_neg (by decide)]
  | ⟨1, _⟩ => show 0 = if (1 : Nat) = 1 then 0 else q.val; rw [if_pos rfl]

/-! ## The body's stored value at an entry -/

/-- Entry (p, q) of what the body stores, from the blocks it loaded. -/
theorem pay_entry (x0 x1 : FVec Ideal S8000x64 .f32) (w1 w2 : FVec Ideal S64x64 .f32) (b1 b2 : FVec Ideal S64 .f32)
    (nr : FVec Ideal S8000x1 .f32) (p : Fin 8000) (q : Fin 64) :
    k0_pay1 (F := Ideal) x0 x1 w1 w2 b1 b2 nr (ix2 p q)
      = ((((∑ k : Fin 64, x0 (ix2 p k) * w1 (ix2 k q)) + b1 (ix1 q))
          + ∑ k : Fin 64, (x0 (ix2 p k) * x1 (ix2 p k)) * w2 (ix2 k q)) + b2 (ix1 q)) * nr (ix2 p (0 : Fin 1)) := by
  unfold k0_pay1
  simp only [shapeCast_self]
  simp only [mulf_apply, addf_apply, matmul_entry, bias_entry, column_entry, truncf_apply]

/-- The same as an entry of the whole message array, when the loaded blocks are rows [r, r + 8000) of the edge
    arrays and the weights and biases whole. -/
theorem pay_block (xs xd : FVec Ideal Cert.Gcn.SE64 .f32) (nrm : FVec Ideal Cert.Gcn.SE1 .f32) (A : FVec Ideal Cert.Gcn.SW .f32)
    (b₁ : FVec Ideal Cert.Gcn.SB .f32) (B : FVec Ideal Cert.Gcn.SW .f32) (b₂ : FVec Ideal Cert.Gcn.SB .f32)
    (x0 x1 : FVec Ideal S8000x64 .f32) (w1 w2 : FVec Ideal S64x64 .f32) (b1 b2 : FVec Ideal S64 .f32) (nr : FVec Ideal S8000x1 .f32)
    (r : ℕ) (hr : r + 8000 ≤ 1600000)
    (h0 : ∀ (p : Fin 8000) (k : Fin 64), x0 (ix2 p k) = xs (ix2 (⟨r + p.val, by omega⟩ : Fin 1600000) k))
    (h1 : ∀ (p : Fin 8000) (k : Fin 64), x1 (ix2 p k) = xd (ix2 (⟨r + p.val, by omega⟩ : Fin 1600000) k))
    (h2 : ∀ (p : Fin 8000), nr (ix2 p (0 : Fin 1)) = nrm (ix2 (⟨r + p.val, by omega⟩ : Fin 1600000) (0 : Fin 1)))
    (h3 : w1 = A) (h4 : b1 = b₁) (h5 : w2 = B) (h6 : b2 = b₂) (p : Fin 8000) (q : Fin 64) :
    k0_pay1 (F := Ideal) x0 x1 w1 w2 b1 b2 nr (ix2 p q)
      = Cert.Gcn.msgKat xs xd nrm A b₁ B b₂ (⟨r + p.val, by omega⟩ : Fin 1600000) q := by
  subst h3 h4 h5 h6
  rw [pay_entry]
  unfold Cert.Gcn.msgKat
  simp only [h0, h1, h2]

/-! ## The region -/

variable (V : (c : Dev nD) → (b : Ref sig .tc) → Buf (Elt Ideal) ((c : Thread nD τ).loc b))

/-- The index maps, decided over the two hundred points: the three edge windows and the output sit at block
    (t, 0); the weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- What point t writes back is block t of the message array of the arrays the region found. -/
theorem flushed_eq (c : Dev nD) (t : Fin cfg0.N) :
    (dat0 V c).flushed 7 t = ((cfg0.win 7).blk t).view.read (Elt Ideal)
      (Cert.Gcn.msgK (V c main_v7) (V c main_v14) (V c main_arg2) (V c main_v15) (V c main_arg4) (V c main_v16) (V c main_arg6)) := by
  show (cfg0.win 7).cut (grid0.coords t) ((dat0 V c).after 7 t) = _
  rw [after0_7]
  unfold out0_7
  rw [View.canon_unit_zero zero2]
  simp only [View.ld_unit_zero (S := S8000x64) zero2, View.ld_unit_zero (S := S64x64) zero2, View.ld_unit_zero (S := S64) zero1,
    View.ld_unit_zero (S := S8000x1) zero2]
  obtain ⟨a00, a01, a10, a11, a20, a21, a30, a31, a40, a50, a51, a60, a70, a71⟩ := idx_facts t
  have hN : cfg0.N = 200 := N_0
  have ht : t.val < 200 := hN ▸ t.isLt
  funext j
  have hj0 : (j 0).val < 8000 := (j 0).isLt
  refine (congrArg (k0_pay1 (F := Ideal) (iblk0 V c 0 t) (iblk0 V c 1 t) (iblk0 V c 3 t) (iblk0 V c 5 t) (iblk0 V c 4 t) (iblk0 V c 6 t) (iblk0 V c 2 t)) (eq_ix2 j)).trans ?_
  refine (pay_block (V c main_v7) (V c main_v14) (V c main_arg2) (V c main_v15) (V c main_arg4) (V c main_v16) (V c main_arg6)
    (iblk0 V c 0 t) (iblk0 V c 1 t) (iblk0 V c 3 t) (iblk0 V c 5 t) (iblk0 V c 4 t) (iblk0 V c 6 t) (iblk0 V c 2 t)
    (t.val * 8000) (by omega) ?_ ?_ ?_ ?_ ?_ ?_ ?_ (j 0) (j 1)).trans ?_
  · intro p k
    show V c main_v7 (((cfg0.win 0).blk t).view.emb (ix2 p k)) = V c main_v7 (ix2 (⟨t.val * 8000 + p.val, by omega⟩ : Fin 1600000) k)
    refine congrArg (V c main_v7) (funext fun a => Fin.ext ?_)
    match a with
    | ⟨0, _⟩ => show win0_0.index t (0 : Fin 2) * 8000 + 1 * p.val = t.val * 8000 + p.val; omega
    | ⟨1, _⟩ => show win0_0.index t (1 : Fin 2) * 64 + 1 * k.val = k.val; omega
  · intro p k
    show V c main_v14 (((cfg0.win 1).blk t).view.emb (ix2 p k)) = V c main_v14 (ix2 (⟨t.val * 8000 + p.val, by omega⟩ : Fin 1600000) k)
    refine congrArg (V c main_v14) (funext fun a => Fin.ext ?_)
    match a with
    | ⟨0, _⟩ => show win0_1.index t (0 : Fin 2) * 8000 + 1 * p.val = t.val * 8000 + p.val; omega
    | ⟨1, _⟩ => show win0_1.index t (1 : Fin 2) * 64 + 1 * k.val = k.val; omega
  · intro p
    show V c main_arg2 (((cfg0.win 2).blk t).view.emb (ix2 p (0 : Fin 1))) = V c main_arg2 (ix2 (⟨t.val * 8000 + p.val, by omega⟩ : Fin 1600000) (0 : Fin 1))
    refine congrArg (V c main_arg2) (funext fun a => Fin.ext ?_)
    match a with
    | ⟨0, _⟩ => show win0_2.index t (0 : Fin 2) * 8000 + 1 * p.val = t.val * 8000 + p.val; omega
    | ⟨1, _⟩ => show win0_2.index t (1 : Fin 2) * 1 + 1 * 0 = 0; omega
  · funext y
    show V c main_v15 (((cfg0.win 3).blk t).view.emb y) = V c main_v15 y
    refine congrArg (V c main_v15) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 1) * 64 + 1 * (y 0).val = (y 0).val; omega
  · funext y
    show V c main_v16 (((cfg0.win 5).blk t).view.emb y) = V c main_v16 y
    refine congrArg (V c main_v16) (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  · funext y
    show V c main_arg6 (((cfg0.win 6).blk t).view.emb y) = V c main_arg6 y
    refine congrArg (V c main_arg6) (funext fun a => Fin.ext ?_)
    match a with
    | ⟨0, _⟩ => show win0_6.index t (0 : Fin 1) * 64 + 1 * (y 0).val = (y 0).val; omega
  · show Cert.Gcn.msgKat (V c main_v7) (V c main_v14) (V c main_arg2) (V c main_v15) (V c main_arg4) (V c main_v16) (V c main_arg6)
        (⟨t.val * 8000 + (j 0).val, by omega⟩ : Fin 1600000) (j 1)
      = Cert.Gcn.msgKat (V c main_v7) (V c main_v14) (V c main_arg2) (V c main_v15) (V c main_arg4) (V c main_v16) (V c main_arg6)
        ((((cfg0.win 7).blk t).view.emb j) 0) ((((cfg0.win 7).blk t).view.emb j) 1)
    have e0 : (⟨t.val * 8000 + (j 0).val, by omega⟩ : Fin 1600000) = (((cfg0.win 7).blk t).view.emb j) 0 :=
      Fin.ext (by show t.val * 8000 + (j 0).val = win0_7.index t (0 : Fin 2) * 8000 + 1 * (j 0).val; omega)
    have e1 : (j 1 : Fin 64) = (((cfg0.win 7).blk t).view.emb j) 1 :=
      Fin.ext (by show (j 1).val = win0_7.index t (1 : Fin 2) * 64 + 1 * (j 1).val; omega)
    rw [e0, e1]

/-- An index of the message array lies in point t's block iff each coordinate lies in the block's range. -/
theorem mem_blk (t : Fin cfg0.N) (i : S1600000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v17).slice (win0_7.rect t)).set ↔ _
  rw [View.set_slice_whole, Rect.mem_set_unit]
  exact Iff.rfl

/-- Every row is in some point's block: row r in that of point r / 8000. -/
theorem cover (i : S1600000x64.Idx) : ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 200 := N_0
  let t : Fin cfg0.N := ⟨(i 0).val / 8000, by rw [hN]; omega⟩
  obtain ⟨a00, a01, a10, a11, a20, a21, a30, a31, a40, a50, a51, a60, a70, a71⟩ := idx_facts t
  have ht : t.val = (i 0).val / 8000 := rfl
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- After the region its output array is the message array of the arrays its windows found. -/
theorem final0 (c : Dev nD) : (dat0 V c).arrAt 7 cfg0.N
    = Cert.Gcn.msgK (V c main_v7) (V c main_v14) (V c main_arg2) (V c main_v15) (V c main_arg4) (V c main_v16) (V c main_arg6) :=
  (dat0 V c).arrAt_eq_of_cover 7 _ (fun t _ => flushed_eq V c t) cover

end Cert.KernelIdeal.Region0

end
-- ==== Proof.Region1.lean ====
/-
  The second region: LeakyReLU over the node array, ten blocks of 10000 rows.

  Grid point t reads rows [10000·t, 10000·t + 10000) of its input array and writes the same rows of its output.
  The body is pointwise, so the block it writes is the block of the whole-array LeakyReLU of the input array; the
  ten blocks tile the 100000 rows (row r lies in the block of point r / 10000), so after the region the output
  array IS the LeakyReLU of the array the region found in its input window.
-/
import proofs.«162077_j75857712382545_1_alg».proof.Proof.Gen.KernelIdeal.Frame
import proofs.«162077_j75857712382545_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's one payload is LeakyReLU of the loaded block, entry by entry. -/
theorem pay_apply (h : FVec Ideal Cert.Gcn.SN64 .f32) (x : Vec Ideal S10000x64 .f32) (e : S10000x64.Idx → Cert.Gcn.SN64.Idx)
    (hx : ∀ j, x j = h (e j)) (j : S10000x64.Idx) : k1_pay1 (F := Ideal) x j = Cert.Gcn.lreluK h (e j) := by
  have hx' : x = fun y => h (e y) := funext hx
  subst hx'
  unfold k1_pay1
  rw [shapeCast_self]
  rfl

/-- The two index maps, decided over the ten points: both windows sit at block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of LeakyReLU of the region's input array. -/
theorem flushed_eq (c : Dev nD) (t : Fin cfg1.N) :
    (dat1 V c).flushed 1 t = ((cfg1.win 1).blk t).view.read (Elt Ideal) (Cert.Gcn.lreluK (V c main_v20)) := by
  show (cfg1.win 1).cut (grid1.coords t) ((dat1 V c).after 1 t) = _
  rw [after1_1]
  unfold out1_1
  rw [View.canon_unit_zero zero2]
  simp only [View.ld_unit_zero (S := S10000x64) zero2]
  obtain ⟨e0, e1, e2, e3⟩ := idx_facts t
  funext j
  refine pay_apply (V c main_v20) (iblk1 V c 0 t) (fun y => ((cfg1.win 1).blk t).view.emb y) (fun y => ?_) j
  show V c main_v20 (((cfg1.win 0).blk t).view.emb y) = V c main_v20 (((cfg1.win 1).blk t).view.emb y)
  refine congrArg (V c main_v20) ?_
  funext a; apply Fin.ext
  match a with
  | ⟨0, _⟩ => show win1_0.index t (0 : Fin 2) * 10000 + 1 * (y 0).val = win1_1.index t (0 : Fin 2) * 10000 + 1 * (y 0).val; omega
  | ⟨1, _⟩ => show win1_0.index t (1 : Fin 2) * 64 + 1 * (y 1).val = win1_1.index t (1 : Fin 2) * 64 + 1 * (y 1).val; omega

/-- An index of the node array lies in point t's block iff each coordinate lies in the block's range. -/
theorem mem_blk (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v21).slice (win1_1.rect t)).set ↔ _
  rw [View.set_slice_whole, Rect.mem_set_unit]
  exact Iff.rfl

/-- Every row is in some point's block: row r in that of point r / 10000. -/
theorem cover (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3⟩ := idx_facts t
  have ht : t.val = (i 0).val / 10000 := rfl
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 64 ≤ (i 1).val ∧ (i 1).val < win1_1.index t (1 : Fin 2) * 64 + 64; omega

/-- After the region its output array is LeakyReLU of the array its input window found. -/
theorem final1 (c : Dev nD) : (dat1 V c).arrAt 1 cfg1.N = Cert.Gcn.lreluK (V c main_v20) :=
  (dat1 V c).arrAt_eq_of_cover 1 (Cert.Gcn.lreluK (V c main_v20)) (fun t _ => flushed_eq V c t) (cover)

end Cert.KernelIdeal.Region1

end
-- ==== Proof.KValue.lean ====
/-
  The kernel program's result as one function of its arguments.

  @main is: a host stretch (stack the two embedding tables, wrap negative endpoint indices, gather the source and
  destination rows, transpose the two weight matrices), the message region, a host stretch (scatter-add the messages
  onto a zero node array at the destination column), the LeakyReLU region. Reading the buffers back from the end:
  the result array is what the last region leaves, LeakyReLU of the array it found; that array is the scatter-add of
  what the first region left, the message array of the arrays IT found; and those are the gathers, the transposes
  and three untouched arguments. The host pieces both programs share are named here and never opened.
-/
import proofs.«162077_j75857712382545_1_alg».proof.Proof.Gen.KernelIdeal.Frame
import proofs.«162077_j75857712382545_1_alg».proof.Proof.Spec
import proofs.«162077_j75857712382545_1_alg».proof.Proof.Region0
import proofs.«162077_j75857712382545_1_alg».proof.Proof.Region1
import proofs.«162077_j75857712382545_1_alg».proof.Proof.KRun
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

/-! ## The host pieces -/

/-- Rows of the stacked node table (the two embedding tables, one above the other) picked by an index vector whose
    negative entries are first wrapped by the table's length. -/
def endpoints (a0 a1 : (⟨S50000x64, .f32⟩ : BufTy).Contents (Elt Ideal)) (ix : (⟨S1600000, .i32⟩ : BufTy).Contents (Elt Ideal)) :
    (⟨S1600000x64, .f32⟩ : BufTy).Contents (Elt Ideal) :=
  Host.gather gather_S100000x64_S1600000x1_S1600000x64_1_0_n_n_0_1_164
    (concatenate S100000x64 0 [⟨S50000x64, a0⟩, ⟨S50000x64, a1⟩] concatenates_S50000x64_S50000x64_S100000x64_d0)
    (broadcastInDim S1600000x1 ![0] bcast_S1600000_S1600000x1_0
      (select (cmpi .slt ix (broadcastInDim S1600000 ![] bcast_S_S1600000 (constantI S_ 32 0#32)))
        (addi ix (broadcastInDim S1600000 ![] bcast_S_S1600000 (constantI S_ 32 100000#32))) ix))

/-- Per-edge rows summed onto a zero node array at the rows an index vector names. -/
def aggregate (ix : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 ix) u

/-- The kernel program's result as a function of its nine arguments: LeakyReLU of the aggregated messages, the
    weights entering the messages transposed. -/
def resultOf (a0 a1 : (⟨S50000x64, .f32⟩ : BufTy).Contents (Elt Ideal)) (a2 : (⟨S1600000x1, .f32⟩ : BufTy).Contents (Elt Ideal))
    (a3 : (⟨S64x64, .f32⟩ : BufTy).Contents (Elt Ideal)) (a4 : (⟨S64, .f32⟩ : BufTy).Contents (Elt Ideal))
    (a5 : (⟨S64x64, .f32⟩ : BufTy).Contents (Elt Ideal)) (a6 : (⟨S64, .f32⟩ : BufTy).Contents (Elt Ideal))
    (a7 a8 : (⟨S1600000, .i32⟩ : BufTy).Contents (Elt Ideal)) : (⟨S100000x64, .f32⟩ : BufTy).Contents (Elt Ideal) :=
  Cert.Gcn.lreluK (aggregate a8
    (Cert.Gcn.msgK (endpoints a0 a1 a7) (endpoints a0 a1 a8) a2
      (transpose S64x64 [1, 0] a3 transposes_S64x64_S64x64_1_0) a4
      (transpose S64x64 [1, 0] a5 transposes_S64x64_S64x64_1_0) a6))

variable (m : (ℓ : Loc nD τ sig) → Buf (Elt Ideal) ℓ) (ρ : Dev nD → PrngReg)

/-- The kernel program's result at the launch contents of its arguments. -/
def result (c : Dev nD) : (⟨S100000x64, .f32⟩ : BufTy).Contents (Elt Ideal) :=
  resultOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## What the message region finds in its windows -/

theorem found_src (c : Dev nD) : V1 m ρ c main_v7
    = endpoints (m ((c : Thread nD τ).loc main_arg0)) (m ((c : Thread nD τ).loc main_arg1)) (m ((c : Thread nD τ).loc main_arg7)) := by
  show StableHlo.after hostOps0 (W0 m ρ c) (Proc.devRef .tc main_v7) = _
  after_results
  rfl
theorem found_dst (c : Dev nD) : V1 m ρ c main_v14
    = endpoints (m ((c : Thread nD τ).loc main_arg0)) (m ((c : Thread nD τ).loc main_arg1)) (m ((c : Thread nD τ).loc main_arg8)) := by
  show StableHlo.after hostOps0 (W0 m ρ c) (Proc.devRef .tc main_v14) = _
  after_results
  rfl
theorem found_w1 (c : Dev nD) : V1 m ρ c main_v15
    = transpose S64x64 [1, 0] (m ((c : Thread nD τ).loc main_arg3)) transposes_S64x64_S64x64_1_0 := by
  show StableHlo.after hostOps0 (W0 m ρ c) (Proc.devRef .tc main_v15) = _
  after_results
theorem found_w2 (c : Dev nD) : V1 m ρ c main_v16
    = transpose S64x64 [1, 0] (m ((c : Thread nD τ).loc main_arg5)) transposes_S64x64_S64x64_1_0 := by
  show StableHlo.after hostOps0 (W0 m ρ c) (Proc.devRef .tc main_v16) = _
  after_results
theorem found_scale (c : Dev nD) : V1 m ρ c main_arg2 = m ((c : Thread nD τ).loc main_arg2) := by
  show StableHlo.after hostOps0 (W0 m ρ c) (Proc.devRef .tc main_arg2) = _
  after_results
theorem found_b1 (c : Dev nD) : V1 m ρ c main_arg4 = m ((c : Thread nD τ).loc main_arg4) := by
  show StableHlo.after hostOps0 (W0 m ρ c) (Proc.devRef .tc main_arg4) = _
  after_results
theorem found_b2 (c : Dev nD) : V1 m ρ c main_arg6 = m ((c : Thread nD τ).loc main_arg6) := by
  show StableHlo.after hostOps0 (W0 m ρ c) (Proc.devRef .tc main_arg6) = _
  after_results
/-- The destination indices are untouched by the first stretch and by the message region. -/
theorem kept_dst (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results

/-! ## What the LeakyReLU region finds -/

theorem found_nodes (c : Dev nD) : V3 m ρ c main_v20
    = aggregate (W2 m ρ c (Proc.devRef .tc main_arg8)) (W2 m ρ c (Proc.devRef .tc main_v17)) := by
  show StableHlo.after hostOps1 (W2 m ρ c) (Proc.devRef .tc main_v20) = _
  after_results
  rfl

/-! ## The result, and the run -/

/-- The last boundary's contents at the result buffer are the kernel program's result. -/
theorem result_eq (c : Dev nD) : W4 m ρ c (Proc.devRef .tc main_v21) = result m c := by
  refine (W4_arr m ρ c 1).trans ?_
  refine (Region1.final1 (V3 m ρ) c).trans ?_
  unfold result resultOf
  refine congrArg Cert.Gcn.lreluK ?_
  rw [found_nodes, kept_dst]
  refine congrArg (aggregate (m ((c : Thread nD τ).loc main_arg8))) ?_
  refine (W2_arr m ρ c 7).trans ?_
  refine (Region0.final0 (V1 m ρ) c).trans ?_
  rw [found_src, found_dst, found_w1, found_w2, found_scale, found_b1, found_b2]

/-- Every weakly fair execution of the kernel program terminates with the result array at result and the
    arguments as launched. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Named.run_named m ρ)

end Cert.KernelIdeal.KValue

end
-- ==== Proof.RefValue.lean ====
/-
  The reference read back as the same two functions.

  Its run ends with the result array at LeakyReLU (the reference's spelling) of a scatter-add whose updates are
  the message array. Read one operation at a time, entry (e, o) of the updates is

      nrm e · ((((Σₖ xs e k · W₁ o k) + b₁ o) + Σₖ (xs e k · xd e k) · W₂ o k) + b₂ o)

  with xs, xd the two gathered endpoint arrays: each dot_general is the sum over its one contracted axis, each bias
  is broadcast first to one row and then down the rows, the scale column is broadcast across the columns. The two
  gathers, the scatter-add and its index column are left as they stand: nothing here depends on what they compute.
-/
import proofs.«162077_j75857712382545_1_alg».proof.Proof.Gen.ReferenceIdeal.Run
import proofs.«162077_j75857712382545_1_alg».proof.Proof.Gen.ReferenceIdeal.Read
import proofs.«162077_j75857712382545_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## Where each operation reads its operands -/

theorem scale_at (i : S1600000x64.Idx) : idx_main_v25 i = ix2 (i 0) (0 : Fin 1) :=
  funext fun a => Fin.ext (by match a with | ⟨0, _⟩ => rfl | ⟨1, _⟩ => rfl)
theorem lhs1_at (i : S1600000x64.Idx) (k : Fin 64) : lidx_main_v15 i k = ix2 (i 0) k :=
  funext fun a => Fin.ext (by match a with | ⟨0, _⟩ => rfl | ⟨1, _⟩ => rfl)
theorem rhs1_at (i : S1600000x64.Idx) (k : Fin 64) : ridx_main_v15 i k = ix2 (i 1) k :=
  funext fun a => Fin.ext (by match a with | ⟨0, _⟩ => rfl | ⟨1, _⟩ => rfl)
theorem lhs2_at (i : S1600000x64.Idx) (k : Fin 64) : lidx_main_v20 i k = ix2 (i 0) k :=
  funext fun a => Fin.ext (by match a with | ⟨0, _⟩ => rfl | ⟨1, _⟩ => rfl)
theorem rhs2_at (i : S1600000x64.Idx) (k : Fin 64) : ridx_main_v20 i k = ix2 (i 1) k :=
  funext fun a => Fin.ext (by match a with | ⟨0, _⟩ => rfl | ⟨1, _⟩ => rfl)
theorem bias1_at (i : S1600000x64.Idx) : idx_main_v16 (idx_main_v17 i) = ix1 (i 1) :=
  funext fun a => Fin.ext (by match a with | ⟨0, _⟩ => rfl)
theorem bias2_at (i : S1600000x64.Idx) : idx_main_v22 (idx_main_v23 i) = ix1 (i 1) :=
  funext fun a => Fin.ext (by match a with | ⟨0, _⟩ => rfl)

/-! ## The updates are the message array -/

/-- The array the scatter-add takes as updates is the reference's message array of the two gathered arrays. -/
theorem updates_eq (x0 x1 : (⟨S50000x64, .f32⟩ : BufTy).Contents (Elt Ideal)) (x2 : (⟨S1600000x1, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 x8 : (⟨S1600000, .i32⟩ : BufTy).Contents (Elt Ideal)) :
    val_main_v26 (F := Ideal) x0 x1 x2 x3 x4 x5 x6 x7 x8
      = Cert.Gcn.msgR (val_main_v7 (F := Ideal) x0 x1 x7) (val_main_v14 (F := Ideal) x0 x1 x8) x2 x3 x4 x5 x6 := by
  funext i
  rw [val_main_v26_apply, val_main_v25_apply, val_main_v24_apply, val_main_v21_apply, val_main_v18_apply, val_main_v15_apply,
    val_main_v17_apply, val_main_v16_apply, val_main_v20_apply, val_main_v23_apply, val_main_v22_apply]
  simp only [val_main_v19_apply, scale_at, lhs1_at, rhs1_at, lhs2_at, rhs2_at, bias1_at, bias2_at]
  rfl

/-! ## The result -/

/-- Per-edge rows summed onto a zero node array at the rows an index vector names. -/
def aggregate (ix : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 ix) u

/-- The reference's result as a function of its nine arguments: LeakyReLU of the aggregated messages. -/
def result (a0 a1 : (⟨S50000x64, .f32⟩ : BufTy).Contents (Elt Ideal)) (a2 : (⟨S1600000x1, .f32⟩ : BufTy).Contents (Elt Ideal))
    (a3 : (⟨S64x64, .f32⟩ : BufTy).Contents (Elt Ideal)) (a4 : (⟨S64, .f32⟩ : BufTy).Contents (Elt Ideal))
    (a5 : (⟨S64x64, .f32⟩ : BufTy).Contents (Elt Ideal)) (a6 : (⟨S64, .f32⟩ : BufTy).Contents (Elt Ideal))
    (a7 a8 : (⟨S1600000, .i32⟩ : BufTy).Contents (Elt Ideal)) : (⟨S100000x64, .f32⟩ : BufTy).Contents (Elt Ideal) :=
  Cert.Gcn.lreluR
    (aggregate a8 (Cert.Gcn.msgR (val_main_v7 (F := Ideal) a0 a1 a7) (val_main_v14 (F := Ideal) a0 a1 a8) a2 a3 a4 a5 a6))
    bcast_S_S100000x64

/-- The array the reference's run ends with is that function of the launch contents of its arguments. -/
theorem result_eq (m : (ℓ : Loc nD τ sig) → Buf (Elt Ideal) ℓ) (c : Dev nD) :
    Cert.ReferenceIdeal.Value.res_main_v34 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold result aggregate
  rw [val_main_v34_eq, ← updates_eq]
  rfl

end Cert.ReferenceIdeal.RefValue

end
-- ==== Proof.lean ====
/-
  One graph-convolution layer: a program of two kernels against its reference, over extended reals.

  Both programs stack the two embedding tables, gather the source and destination rows of every edge, form a
  per-edge message, sum the messages onto their destination nodes and apply LeakyReLU. They differ in the message
  and in the spelling of LeakyReLU only. The kernel's first region computes, for blocks of 8000 edges,

      (((xs · W₁ᵀ) + b₁) + (xs ∘ xd) · W₂ᵀ + b₂) ∘ nrm

  with the weights transposed on the host beforehand and narrowed to bf16 for the matrix unit, which over extended
  reals changes nothing; the reference contracts the second axis of W₁ and W₂ directly and multiplies by nrm on the
  left. Entry by entry the two are one value: a transpose read at (k, o) is the matrix at (o, k), a matrix product
  into a zero accumulator is the same finite sum as the host's contraction, and multiplication commutes. No
  finiteness of the inputs is used. The second region is LeakyReLU in blocks of 10000 nodes, pointwise, with the
  same slope word as the reference's.

  The kernel program's value is read off its run block by block (each region's output array is one function of the
  arrays the region found, because its blocks tile the array) and chained through the two host stretches; the
  reference's is its run read one operation at a time. The three frames are the programs' runs with the results
  forgotten; the idealization rewrote nothing, so there is nothing to preserve.
-/
import proofs.«162077_j75857712382545_1_alg».proof.Defs
import proofs.«162077_j75857712382545_1_alg».proof.Proof.Gen.Kernel
import proofs.«162077_j75857712382545_1_alg».proof.Proof.Gen.Kernel.Skeleton
import proofs.«162077_j75857712382545_1_alg».proof.Proof.Gen.Kernel.Launch
import proofs.«162077_j75857712382545_1_alg».proof.Proof.Gen.Kernel.Points
import proofs.«162077_j75857712382545_1_alg».proof.Proof.Gen.Kernel.Frame
import proofs.«162077_j75857712382545_1_alg».proof.Proof.Gen.KernelIdeal
import proofs.«162077_j75857712382545_1_alg».proof.Proof.Gen.KernelIdeal.Skeleton
import proofs.«162077_j75857712382545_1_alg».proof.Proof.Gen.KernelIdeal.Launch
import proofs.«162077_j75857712382545_1_alg».proof.Proof.Gen.KernelIdeal.Points
import proofs.«162077_j75857712382545_1_alg».proof.Proof.Gen.KernelIdeal.Frame
import proofs.«162077_j75857712382545_1_alg».proof.Proof.Gen.ReferenceIdeal
import proofs.«162077_j75857712382545_1_alg».proof.Proof.Gen.ReferenceIdeal.Run
import proofs.«162077_j75857712382545_1_alg».proof.Proof.Gen.ReferenceIdeal.Read
import proofs.«162077_j75857712382545_1_alg».proof.Proof.Gen.Pre_finite_inputs
import proofs.«162077_j75857712382545_1_alg».proof.Proof.Spec
import proofs.«162077_j75857712382545_1_alg».proof.Proof.KValue
import proofs.«162077_j75857712382545_1_alg».proof.Proof.RefValue
import Idealize.ShloMosaic.Adequacy
import Idealize.ShloMosaic.Init

noncomputable section

namespace Cert.Proof

open Idealize.ShloMosaic Idealize.SL.Sem

/-! ## The two programs compute one function of their arguments -/

/-- The gather of the source rows is the same host operation in both programs. -/
theorem endpoints_src (a0 a1 : (⟨Cert.KernelIdeal.S50000x64, .f32⟩ : BufTy).Contents (Elt Ideal))
    (ix : (⟨Cert.KernelIdeal.S1600000, .i32⟩ : BufTy).Contents (Elt Ideal)) :
    Cert.KernelIdeal.KValue.endpoints a0 a1 ix = Cert.ReferenceIdeal.Read.val_main_v7 (F := Ideal) a0 a1 ix := rfl

/-- So is the gather of the destination rows. -/
theorem endpoints_dst (a0 a1 : (⟨Cert.KernelIdeal.S50000x64, .f32⟩ : BufTy).Contents (Elt Ideal))
    (ix : (⟨Cert.KernelIdeal.S1600000, .i32⟩ : BufTy).Contents (Elt Ideal)) :
    Cert.KernelIdeal.KValue.endpoints a0 a1 ix = Cert.ReferenceIdeal.Read.val_main_v14 (F := Ideal) a0 a1 ix := rfl

/-- And the scatter-add onto the zero node array. -/
theorem aggregate_same (ix : (⟨Cert.KernelIdeal.S1600000, .i32⟩ : BufTy).Contents (Elt Ideal))
    (u : (⟨Cert.KernelIdeal.S1600000x64, .f32⟩ : BufTy).Contents (Elt Ideal)) :
    Cert.KernelIdeal.KValue.aggregate ix u = Cert.ReferenceIdeal.RefValue.aggregate ix u := rfl

/-- The reference's result and the kernel program's are one function of the nine arguments: the LeakyReLU
    spellings agree, the message arrays agree once the kernel's weights are read as transposes, and the gathers
    and the scatter-add are shared. -/
theorem results_agree (a0 a1 : (⟨Cert.KernelIdeal.S50000x64, .f32⟩ : BufTy).Contents (Elt Ideal))
    (a2 : (⟨Cert.KernelIdeal.S1600000x1, .f32⟩ : BufTy).Contents (Elt Ideal))
    (a3 : (⟨Cert.KernelIdeal.S64x64, .f32⟩ : BufTy).Contents (Elt Ideal)) (a4 : (⟨Cert.KernelIdeal.S64, .f32⟩ : BufTy).Contents (Elt Ideal))
    (a5 : (⟨Cert.KernelIdeal.S64x64, .f32⟩ : BufTy).Contents (Elt Ideal)) (a6 : (⟨Cert.KernelIdeal.S64, .f32⟩ : BufTy).Contents (Elt Ideal))
    (a7 a8 : (⟨Cert.KernelIdeal.S1600000, .i32⟩ : BufTy).Contents (Elt Ideal)) :
    Cert.ReferenceIdeal.RefValue.result a0 a1 a2 a3 a4 a5 a6 a7 a8 = Cert.KernelIdeal.KValue.resultOf a0 a1 a2 a3 a4 a5 a6 a7 a8 := by
  unfold Cert.ReferenceIdeal.RefValue.result Cert.KernelIdeal.KValue.resultOf
  rw [Cert.Gcn.lreluR_eq, Cert.Gcn.msgK_transpose, endpoints_src a0 a1 a7, endpoints_dst a0 a1 a8, aggregate_same]

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both end with the result array at the one
    function of the arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.result_eq, h0, h1, h2, h3, h4, h5, h6, h7, h8]
  exact results_agree _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
